-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_tau" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x64x64 : Shape := ⟨4, ![2, 128, 64, 64]⟩
abbrev S2x64x64 : Shape := ⟨3, ![2, 64, 64]⟩
abbrev S_ : Shape := ⟨0, ![]⟩

class Facts : Prop where
  bcast_S_S2x128x64x64 : S_.BroadcastsInDim S2x128x64x64 (![] : Fin 0 → Fin S2x128x64x64.rank)
  reducesTo_S2x128x64x64_S_d0_1_2_3 : S2x128x64x64.ReducesTo [0, 1, 2, 3] S_
  h_S_ : 0 < S_.numel

variable [Facts]

def fn {F : FTy → Type} [FloatOps F] (main_arg0 : FVec F S2x128x64x64 .f32) (main_arg1 : FVec F S2x128x64x64 .f32) (main_arg2 : IVec S2x64x64 32) (main_arg3 : IVec S2x64x64 32) : IVec S_ 1 :=
  let main_v0 : FVec F S2x128x64x64 .f32 := Host.absf main_arg0
  let main_cst : FVec F S_ .f32 := constant S_ .f32 0x7F800000#32
  let main_v1 : FVec F S2x128x64x64 .f32 := broadcastInDim S2x128x64x64 ![] bcast_S_S2x128x64x64 main_cst
  let main_v2 : IVec S2x128x64x64 1 := cmpf .olt main_v0 main_v1
  let main_c : IVec S_ 1 := constantI S_ 1 1#1
  let main_v3 : IVec S_ 1 := (fun x v => Host.reduce IntOp.andi x v reducesTo_S2x128x64x64_S_d0_1_2_3 h_S_) main_v2 main_c
  let main_v4 : FVec F S2x128x64x64 .f32 := Host.absf main_arg1
  let main_cst_0 : FVec F S_ .f32 := constant S_ .f32 0x7F800000#32
  let main_v5 : FVec F S2x128x64x64 .f32 := broadcastInDim S2x128x64x64 ![] bcast_S_S2x128x64x64 main_cst_0
  let main_v6 : IVec S2x128x64x64 1 := cmpf .olt main_v4 main_v5
  let main_c_1 : IVec S_ 1 := constantI S_ 1 1#1
  let main_v7 : IVec S_ 1 := (fun x v => Host.reduce IntOp.andi x v reducesTo_S2x128x64x64_S_d0_1_2_3 h_S_) main_v6 main_c_1
  let main_v8 : IVec S_ 1 := andi main_v3 main_v7
  main_v8
-- ==== Kernel.lean ====
abbrev S2x128x64x64 : Shape := ⟨4, ![2, 128, 64, 64]⟩
abbrev S2x64x64 : Shape := ⟨3, ![2, 64, 64]⟩
abbrev S2x64x64x128 : Shape := ⟨4, ![2, 64, 64, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 46
  | .vmem => 14
  | .smem => 0
  | _ => 0

abbrev bufTy : (tb : Table) → Fin (tcTables nBuf tb) → BufTy
  | .hbm, ⟨0, _⟩ => ⟨S2x128x64x64, .f32⟩
  | .hbm, ⟨1, _⟩ => ⟨S2x128x64x64, .f32⟩
  | .hbm, ⟨2, _⟩ => ⟨S2x64x64, .i32⟩
  | .hbm, ⟨3, _⟩ => ⟨S2x64x64, .i32⟩
  | .hbm, ⟨4, _⟩ => ⟨S2x64x64x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S2x64x64x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x128, .f32⟩
  | .hbm, ⟨27, _⟩ => ⟨S8192x128, .f32⟩
  | .hbm, ⟨28, _⟩ => ⟨S8192, .i32⟩
  | .hbm, ⟨29, _⟩ => ⟨S8192, .i32⟩
  | .hbm, ⟨30, _⟩ => ⟨S8192x1, .i32⟩
  | .hbm, ⟨31, _⟩ => ⟨S1x8192, .i32⟩
  | .hbm, ⟨32, _⟩ => ⟨S1x8192, .f32⟩
  | .hbm, ⟨33, _⟩ => ⟨S1x8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S2x128x64x64_S2x64x64x128_0_2_3_1 : S2x128x64x64.Transposes [0, 2, 3, 1] S2x64x64x128
  shapeCasts_S2x64x64x128_S8192x128 : S2x64x64x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S2x64x64_S8192 : S2x64x64.ShapeCasts S8192
  shapeCasts_S8192_S8192x1 : S8192.ShapeCasts S8192x1
  shapeCasts_S8192_S1x8192 : S8192.ShapeCasts S1x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  reduces_S1024x1024_S1024 : S1024x1024.Reduces [0] S1024
  shapeCasts_S1024_S1x1024 : S1024.ShapeCasts S1x1024
  shapeCasts_S1x8192_S8192 : S1x8192.ShapeCasts S8192
  bcast_S_S8192 : S_.BroadcastsInDim S8192 (![] : Fin 0 → Fin S8192.rank)
  reducesTo_S8192_S_d0 : S8192.ReducesTo [0] S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v13) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x128x64x64 : Shape := ⟨4, ![2, 128, 64, 64]⟩
abbrev S2x64x64 : Shape := ⟨3, ![2, 64, 64]⟩
abbrev S2x64x64x128 : Shape := ⟨4, ![2, 64, 64, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S2x128x64x64, .f32⟩
  | .hbm, ⟨1, _⟩ => ⟨S2x128x64x64, .f32⟩
  | .hbm, ⟨2, _⟩ => ⟨S2x64x64, .i32⟩
  | .hbm, ⟨3, _⟩ => ⟨S2x64x64, .i32⟩
  | .hbm, ⟨4, _⟩ => ⟨S2x64x64x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S8192x128, .f32⟩
  | .hbm, ⟨16, _⟩ => ⟨S2x64x64x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x128, .f32⟩
  | .hbm, ⟨27, _⟩ => ⟨S8192x128, .f32⟩
  | .hbm, ⟨28, _⟩ => ⟨S8192, .i32⟩
  | .hbm, ⟨29, _⟩ => ⟨S8192, .i32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S1x8192, .i32⟩
  | .hbm, ⟨36, _⟩ => ⟨S8192x1, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S2x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  transposes_S2x128x64x64_S2x64x64x128_0_2_3_1 : S2x128x64x64.Transposes [0, 2, 3, 1] S2x64x64x128
  shapeCasts_S2x64x64x128_S8192x128 : S2x64x64x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S2x64x64_S8192 : S2x64x64.ShapeCasts S8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.Found.lean ====
/-
  What one grid point leaves in the two running sums and in the two output blocks, as the body's own payload terms.

  At a point that starts a row of the grid both running sums are first set to zero; the point then adds its block's
  masked column sums to the first and its block's column sums to the second, and copies both to the output blocks.
  At any other point the same is added to what the point before left. Each of the eight facts below says that the
  contents found after the point's stores are that payload term of the point's four input blocks (and, away from a
  row's start, of the two sums found before).
-/
import proofs.«110403_j68083821576868_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F] [Named F]

theorem hz : (![0, 0] : Fin 2 → Nat) = fun _ => 0 := funext fun a => by fin_cases a <;> rfl

variable (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)

theorem nomAcc_first (hc0 : cond0_0 i) (x0 x1 : Vec F S1024x128 .f32) (x2 : Vec F S1024x1 .i32) (x3 : Vec F S1x1024 .i32) :
    sout0_A_0 c i arg2 harg2 arg3 harg3 arg4 harg4 arg5 harg5 arg6 harg6 arg7 harg7 arg8 harg8 arg9 harg9 hc0 x0 x1 x2 x3 = k0_pay5 x0 x1 x2 x3 k0_pay2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.readCov_unit_zero (S := S1x1024) _ hz, View.readCov_cons_toLoadRect]

theorem denAcc_first (hc0 : cond0_0 i) (x0 x1 : Vec F S1024x128 .f32) (x2 : Vec F S1024x1 .i32) (x3 : Vec F S1x1024 .i32) :
    sout0_A_1 c i arg2 harg2 arg3 harg3 arg4 harg4 arg5 harg5 arg6 harg6 arg7 harg7 arg8 harg8 arg9 harg9 hc0 x0 x1 x2 x3 = k0_pay1 (k0_pay6 x0 x1 k0_pay3) := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.readCov_unit_zero (S := S1x1024) _ hz, View.readCov_cons_toLoadRect]

theorem nomOut_first (hc0 : cond0_0 i) (x0 x1 : Vec F S1024x128 .f32) (x2 : Vec F S1024x1 .i32) (x3 : Vec F S1x1024 .i32) :
    out0_A_4 c i arg2 harg2 arg3 harg3 arg4 harg4 arg5 harg5 arg6 harg6 arg7 harg7 arg8 harg8 arg9 harg9 hc0 x0 x1 x2 x3 = k0_pay5 x0 x1 x2 x3 k0_pay2 := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.readCov_unit_zero (S := S1x1024) _ hz, View.readCov_cons_toLoadRect]

theorem denOut_first (hc0 : cond0_0 i) (x0 x1 : Vec F S1024x128 .f32) (x2 : Vec F S1024x1 .i32) (x3 : Vec F S1x1024 .i32) :
    out0_A_5 c i arg2 harg2 arg3 harg3 arg4 harg4 arg5 harg5 arg6 harg6 arg7 harg7 arg8 harg8 arg9 harg9 hc0 x0 x1 x2 x3 = k0_pay1 (k0_pay6 x0 x1 k0_pay3) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.readCov_unit_zero (S := S1x1024) _ hz, View.readCov_cons_toLoadRect]

theorem nomAcc_next (hc0 : ¬cond0_0 i) (x0 x1 : Vec F S1024x128 .f32) (x2 : Vec F S1024x1 .i32) (x3 : Vec F S1x1024 .i32) (xs0 xs1 : Vec F S1x1024 .f32) :
    sout0_B_0 c i arg2 harg2 arg3 harg3 arg4 harg4 arg5 harg5 arg6 harg6 arg7 harg7 arg8 harg8 arg9 harg9 hc0 x0 x1 x2 x3 xs0 xs1 = k0_pay5 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.readCov_unit_zero (S := S1x1024) _ hz, View.readCov_cons_toLoadRect]

theorem denAcc_next (hc0 : ¬cond0_0 i) (x0 x1 : Vec F S1024x128 .f32) (x2 : Vec F S1024x1 .i32) (x3 : Vec F S1x1024 .i32) (xs0 xs1 : Vec F S1x1024 .f32) :
    sout0_B_1 c i arg2 harg2 arg3 harg3 arg4 harg4 arg5 harg5 arg6 harg6 arg7 harg7 arg8 harg8 arg9 harg9 hc0 x0 x1 x2 x3 xs0 xs1 = k0_pay1 (k0_pay6 x0 x1 xs1) := by
  unfold sout0_B_1
  rw [View.read_writes_eq_canon _ _ _ (scover0_B_1 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.readCov_unit_zero (S := S1x1024) _ hz, View.readCov_cons_toLoadRect]

theorem nomOut_next (hc0 : ¬cond0_0 i) (x0 x1 : Vec F S1024x128 .f32) (x2 : Vec F S1024x1 .i32) (x3 : Vec F S1x1024 .i32) (xs0 xs1 : Vec F S1x1024 .f32) :
    out0_B_4 c i arg2 harg2 arg3 harg3 arg4 harg4 arg5 harg5 arg6 harg6 arg7 harg7 arg8 harg8 arg9 harg9 hc0 x0 x1 x2 x3 xs0 xs1 = k0_pay5 x0 x1 x2 x3 xs0 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.readCov_unit_zero (S := S1x1024) _ hz, View.readCov_cons_toLoadRect]

theorem denOut_next (hc0 : ¬cond0_0 i) (x0 x1 : Vec F S1024x128 .f32) (x2 : Vec F S1024x1 .i32) (x3 : Vec F S1x1024 .i32) (xs0 xs1 : Vec F S1x1024 .f32) :
    out0_B_5 c i arg2 harg2 arg3 harg3 arg4 harg4 arg5 harg5 arg6 harg6 arg7 harg7 arg8 harg8 arg9 harg9 hc0 x0 x1 x2 x3 xs0 xs1 = k0_pay1 (k0_pay6 x0 x1 xs1) := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S1024x128) hz, View.ld_unit_zero (S := S1024x1) hz, View.ld_unit_zero (S := S1x1024) hz, View.readCov_unit_zero (S := S1x1024) _ hz, View.readCov_cons_toLoadRect]

end Cert.KernelIdeal.Found

end
-- ==== Proof.Spec.lean ====
/-
  The two sums a contrastive loss takes over pairs of pixels, as functions of the unit rows and the labels, over the
  extended reals.

  For target rows `nt` and input rows `ni` (8192 rows of 128 entries) the similarity of target pixel `a` and input
  pixel `b` is the inner product of their rows; its weight is `exp (sim / τ)`, written here as the product with `1/τ`.
  For input pixel `b` the numerator adds the weights of the target pixels `a` whose label equals `b`'s, and the
  denominator adds all of them.

  A sum over the 8192 target pixels is the sum, over eight consecutive blocks of 1024, of the blocks' sums
  (`sum_blocks`): addition of extended reals is commutative and associative, so no finiteness is involved.
-/
import Idealize.ShloMosaic.Lib.ValueIdx
import Idealize.ShloMosaic.PureOps.Ideal.Laws

noncomputable section

open scoped BigOperators

namespace Cert.Contrast

open Idealize.ShloMosaic

/-- The reciprocal of the temperature: one over the number the pattern `0x3D8F5C29` denotes. -/
abbrev invTau : EReal := ((134217728 / 9395241 : ℝ) : EReal)

variable (nt ni : Fin 8192 → Fin 128 → EReal) (pt pi : Fin 8192 → BitVec 32)

/-- The inner product of target row `a` and input row `b`. -/
def sim (a b : Fin 8192) : EReal := ∑ c : Fin 128, nt a c * ni b c

/-- The weight of the pair: `exp (sim · (1/τ))`. -/
def weight (a b : Fin 8192) : EReal := Ideal.exp (sim nt ni a b * invTau)

/-- The pair's weight where the two labels agree, zero elsewhere. -/
def matched (a b : Fin 8192) : EReal :=
  Scalar.select (IntOp.cmpi .eq (pt a) (pi b)) (weight nt ni a b) 0

/-- The numerator at input pixel `b`: the weights of the target pixels with `b`'s label. -/
def nom (b : Fin 8192) : EReal := ∑ a : Fin 8192, matched nt ni pt pi a b

/-- The denominator at input pixel `b`: every target pixel's weight. -/
def den (b : Fin 8192) : EReal := ∑ a : Fin 8192, weight nt ni a b

/-- Entry `r` of block `j` of an axis of 8192 cut into blocks of 1024 (read modulo 8192, so that it is total in `j`). -/
def at1024 (j : ℕ) (r : Fin 1024) : Fin 8192 := ⟨(j * 1024 + r.val) % 8192, Nat.mod_lt _ (by norm_num)⟩

theorem at1024_val {j : ℕ} (hj : j < 8) (r : Fin 1024) : (at1024 j r).val = j * 1024 + r.val := by
  have := r.isLt
  show (j * 1024 + r.val) % 8192 = _
  exact Nat.mod_eq_of_lt (by omega)

/-- A sum over 8192 entries is the sum over the eight blocks of 1024 of each block's sum. -/
theorem sum_blocks {M : Type*} [AddCommMonoid M] (g : Fin 8192 → M) :
    ∑ j ∈ Finset.range 8, ∑ r : Fin 1024, g (at1024 j r) = ∑ a : Fin 8192, g a := by
  rw [Finset.sum_range fun j => ∑ r : Fin 1024, g (at1024 j r)]
  rw [← Fintype.sum_prod_type' (f := fun (j : Fin 8) (r : Fin 1024) => g (at1024 j.val r))]
  refine Fintype.sum_equiv (finProdFinEquiv (m := 8) (n := 1024)) _ _ fun x => ?_
  refine congrArg g (Fin.ext ?_)
  rw [at1024_val x.1.isLt]
  show _ = x.2.val + 1024 * x.1.val
  ring

end Cert.Contrast

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotRows.lean ====
/-
  Matrix products of two operands that are both contracted on their LAST axis (an `M × K` by an `N × K` operand, no
  batch axis), read at an entry at the ideal values, for any dimension numbers record whose axis lists are the stated
  ones (a printed record satisfies each hypothesis by `rfl`).

  Entry (a, b) of the product is the sum over the contracted coordinate `c` of the left operand's entry (a, c) times the
  right operand's entry (b, c): the inner product of row `a` of the left with row `b` of the right. Stated for the
  kernel's matrix product into the zero accumulator and for the host's `dot_general`.
-/
import proofs.«110403_j68083821576868_1_alg».proof.Proof.LibDot

noncomputable section

open scoped BigOperators

namespace Cert.LibDot

open Idealize.ShloMosaic Idealize.ShloMosaic.ValueIdx

section Rows
variable {M K N : Nat} (d : DotDims ⟨2, ![M, K]⟩ ⟨2, ![N, K]⟩ ⟨2, ![M, N]⟩)

/-- The two operand indices of output entry (a, b) at contracted coordinate `c`: (a, c) and (b, c). -/
theorem idx_11 (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K) (a : Fin M) (b : Fin N) (c : Fin K) :
    d.lhsIdx (ix2 a b) ((contrEquiv1 d K hr hs).symm c) = ix2 a c
      ∧ d.rhsIdx (ix2 a b) ((contrEquiv1 d K hr hs).symm c) = ix2 b c := by
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  refine ⟨?_, ?_⟩
  · funext ax; apply Fin.ext
    match ax with
    | ⟨0, _⟩ => exact l0
    | ⟨1, _⟩ => exact l1
  · funext ax; apply Fin.ext
    match ax with
    | ⟨0, _⟩ => exact r0
    | ⟨1, _⟩ => exact r1

/-- The contracted shape has one axis, of extent `K`. -/
theorem contr_11 (hlc : d.lhsContracting = [1]) :
    ∃ hr : d.contr.rank = 1, d.contr.size ⟨0, by omega⟩ = K := by
  have hr : d.contr.rank = 1 := by rw [d.rank_contr, hlc]; rfl
  refine ⟨hr, ?_⟩
  rw [d.size_contr 0 (by rw [hlc]; exact Nat.one_pos)]; simp [hlc]

/-- The kernel's product into the zero accumulator: rows of the left against rows of the right. -/
theorem matmul_11_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  obtain ⟨hr, hs⟩ := contr_11 d hlc
  show FloatOps.matmul _ prec A B _ (ix2 a b) = _
  rw [Ideal.matmul_constant_zero_apply, ← Equiv.sum_comp (contrEquiv1 d K hr hs).symm]
  refine Finset.sum_congr rfl fun c _ => ?_
  obtain ⟨l2, r2⟩ := idx_11 d hlc hrc hln hrn hlb hrb hr hs a b c
  rw [l2, r2]

/-- The host's `dot_general` of the same two operands is the same sum. -/
theorem dotGeneral_11_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    Host.dotGeneral (F := Ideal) d prec A B (ix2 a b) = ∑ c : Fin K, A (ix2 a c) * B (ix2 b c) := by
  obtain ⟨hr, hs⟩ := contr_11 d hlc
  simp only [Host.dotGeneral]
  rw [Ideal.dotGeneral_apply, ← Equiv.sum_comp (contrEquiv1 d K hr hs).symm]
  refine Finset.sum_congr rfl fun c _ => ?_
  obtain ⟨l2, r2⟩ := idx_11 d hlc hrc hln hrn hlb hrb hr hs a b c
  rw [l2, r2]

end Rows

end Cert.LibDot

end
-- ==== Proof.Payload.lean ====
/-
  The body's payload terms read at an entry, at the ideal values.

  For the point's target block `x0` and input block `x1` (1024 rows of 128 entries each) entry (a, b) of the weight
  matrix is `exp` of the inner product of row `a` of `x0` with row `b` of `x1`, times the named reciprocal of the
  temperature. With the target labels `x2` (a column) and the input labels `x3` (a row), the first running sum gains,
  in column `b`, the weights of the rows `a` whose label equals `b`'s; the second gains the whole column's weights.
-/
import proofs.«110403_j68083821576868_1_alg».proof.Proof.Gen.KernelIdeal.Skeleton
import proofs.«110403_j68083821576868_1_alg».proof.Proof.Spec
import proofs.«110403_j68083821576868_1_alg».proof.Proof.LibDotRows
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The named reciprocal of the temperature denotes `134217728 / 9395241`. -/
theorem invTau_named : Named.named (F := Ideal) Cert.KernelIdeal.κ "inv_tau" (φ := .f32) 0x41649249#32 = Cert.Contrast.invTau :=
  IdealRules.named_const.ideal_named_scalar _ _ _ _ rfl

/-- A sum down the columns of a 1024 × 1024 matrix, read at column `b`. -/
theorem colSum_apply (v : FVec Ideal S1024x1024 .f32) (hφ : FKind.Formats .f32)
    (hacc : (0x00000000#32 : BitVec FTy.f32.bits) = FKind.add.neutral .f32 hφ) (b : Fin 1024) :
    multiReduction .add [0] S1024 v 0x00000000#32 reduces_S1024x1024_S1024 hφ hacc (ix1 b) = ∑ a : Fin 1024, v (ix2 a b) :=
  (Ideal.multiReduction_add_single v _ reduces_S1024x1024_S1024 hφ hacc (ix1 b)).trans
    (Finset.sum_congr rfl fun a _ => congrArg v (funext fun ax => Fin.ext (by
      match ax with
      | ⟨0, _⟩ => rfl
      | ⟨1, _⟩ => rfl)))

/-- A column of 1024 labels broadcast along rows of 1024: entry (a, b) is the column's entry `a`. -/
theorem colBroadcast_apply {α : Type} (v : S1024x1.Idx → α) (a b : Fin 1024) :
    broadcastTo S1024x1024 v broadcasts_S1024x1_S1024x1024 (ix2 a b) = v (ix2 a (0 : Fin 1)) := by
  refine broadcastTo_apply v broadcasts_S1024x1_S1024x1024 (ix2 a b) (ix2 a (0 : Fin 1)) fun ax => ?_
  match ax with
  | ⟨0, _⟩ => rfl
  | ⟨1, _⟩ => rfl

/-- Entry (a, b) of the block's weight matrix. -/
theorem weights_apply (x0 x1 : FVec Ideal S1024x128 .f32) (a b : Fin 1024) :
    k0_pay4 (F := Ideal) x0 x1 (ix2 a b)
      = Ideal.exp ((∑ c : Fin 128, x0 (ix2 a c) * x1 (ix2 b c)) * Cert.Contrast.invTau) := by
  unfold k0_pay4
  rw [shapeCast_self, shapeCast_self]
  show Ideal.exp (matmul (F := Ideal) dot_S1024x128_S1024x128_S1024x1024_1_1_0_0_n_n none x0 x1 (constant S1024x1024 .f32 0x00000000#32) (ix2 a b)
    * Named.named (F := Ideal) Cert.KernelIdeal.κ "inv_tau" (φ := .f32) 0x41649249#32) = _
  rw [Cert.LibDot.matmul_11_zero_apply _ rfl rfl rfl rfl rfl rfl, invTau_named]

/-- The zero both running sums start a row of the grid from. -/
theorem zeroRow_apply (i : S1x1024.Idx) : (k0_pay2 (F := Ideal)) i = 0 ∧ (k0_pay3 (F := Ideal)) i = 0 := by
  unfold k0_pay2 k0_pay3
  rw [shapeCast_self]
  exact ⟨Ideal.ofBits_zero_f32, Ideal.ofBits_zero_f32⟩

/-- The copy to an output block changes nothing. -/
theorem copy_eq (v : FVec Ideal S1x1024 .f32) : k0_pay1 (F := Ideal) v = v := by
  unfold k0_pay1
  rw [shapeCast_self]

/-- The first running sum after the point, in column `b`: what it held plus the weights of the rows of the block whose
    label equals the column's. -/
theorem maskedStep_apply (x0 x1 : FVec Ideal S1024x128 .f32) (x2 : IVec S1024x1 32) (x3 : IVec S1x1024 32)
    (acc : FVec Ideal S1x1024 .f32) (b : Fin 1024) :
    k0_pay5 (F := Ideal) x0 x1 x2 x3 acc (ix2 (0 : Fin 1) b)
      = acc (ix2 (0 : Fin 1) b) + ∑ a : Fin 1024,
          Scalar.select (IntOp.cmpi .eq (x2 (ix2 a (0 : Fin 1))) (x3 (ix2 (0 : Fin 1) b))) (k0_pay4 (F := Ideal) x0 x1 (ix2 a b)) 0 := by
  unfold k0_pay5
  rw [shapeCast_self, shapeCast_self, shapeCast_self]
  refine congrArg (acc (ix2 (0 : Fin 1) b) + ·) ?_
  refine (shapeCast_a_1a_apply _ shapeCasts_S1024_S1x1024 (0 : Fin 1) b).trans ?_
  refine (colSum_apply _ _ _ b).trans ?_
  refine Finset.sum_congr rfl fun a _ => ?_
  show Scalar.select (IntOp.cmpi .eq (broadcastTo S1024x1024 x2 broadcasts_S1024x1_S1024x1024 (ix2 a b))
      (broadcastTo S1024x1024 x3 broadcasts_S1x1024_S1024x1024 (ix2 a b))) (k0_pay4 (F := Ideal) x0 x1 (ix2 a b))
      (Ideal.ofBits .f32 0x00000000#32) = _
  rw [colBroadcast_apply, broadcastTo_1b_ab_apply, Ideal.ofBits_zero_f32]

/-- The second running sum after the point, in column `b`: what it held plus the column's weights. -/
theorem plainStep_apply (x0 x1 : FVec Ideal S1024x128 .f32) (acc : FVec Ideal S1x1024 .f32) (b : Fin 1024) :
    k0_pay6 (F := Ideal) x0 x1 acc (ix2 (0 : Fin 1) b)
      = acc (ix2 (0 : Fin 1) b) + ∑ a : Fin 1024, k0_pay4 (F := Ideal) x0 x1 (ix2 a b) := by
  unfold k0_pay6
  refine congrArg (acc (ix2 (0 : Fin 1) b) + ·) ?_
  refine (shapeCast_a_1a_apply _ shapeCasts_S1024_S1x1024 (0 : Fin 1) b).trans ?_
  exact colSum_apply _ _ _ b

end Cert.KernelIdeal.Payload

end
-- ==== Proof.Running.lean ====
/-
  The two running sums after each grid point, and what the kernel writes back.

  The grid has 8 × 8 points; point `t` is in row `t / 8` (which block of 1024 input pixels its columns are) and at
  position `t % 8` of the row (which block of 1024 target pixels its rows are). Within a row of the grid the first
  running sum holds, in column `b`, the matched weights of the target blocks met so far against input pixel
  `(t / 8) · 1024 + b`, and the second all their weights: by induction on the point. At the row's last point the eight
  blocks are all 8192 target pixels, so what is written back is block `t / 8` of the numerator and of the
  denominator; the eight written blocks cover both output arrays.
-/
import proofs.«110403_j68083821576868_1_alg».proof.Proof.Gen.KernelIdeal.Frame
import proofs.«110403_j68083821576868_1_alg».proof.Proof.Found
import proofs.«110403_j68083821576868_1_alg».proof.Proof.Payload
import proofs.«110403_j68083821576868_1_alg».proof.Proof.Spec
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.Running

open Cert.KernelIdeal Cert.KernelIdeal.Gen Idealize.ShloMosaic.ValueIdx Cert.Contrast

variable (m : (ℓ : Loc nD τ sig) → Buf (Elt Ideal) ℓ) (ρ : Dev nD → PrngReg)

/-! ## The four arrays the region reads, and their blocks -/

/-- The unit target rows, the unit input rows, the target labels (a column) and the input labels (a row), as the
    region finds them. -/
abbrev ntArr (c : Dev nD) : FVec Ideal S8192x128 .f32 := V m c main_v13
abbrev niArr (c : Dev nD) : FVec Ideal S8192x128 .f32 := V m c main_v6
abbrev ptArr (c : Dev nD) : IVec S8192x1 32 := V m c main_v16
abbrev piArr (c : Dev nD) : IVec S1x8192 32 := V m c main_v17

/-- The same by pixel: row `a` of the target rows, row `b` of the input rows, and the two label lists. -/
def ntRow (c : Dev nD) : Fin 8192 → Fin 128 → EReal := fun a k => ntArr m c (ix2 a k)
def niRow (c : Dev nD) : Fin 8192 → Fin 128 → EReal := fun b k => niArr m c (ix2 b k)
def ptLab (c : Dev nD) : Fin 8192 → BitVec 32 := fun a => ptArr m c (ix2 a (0 : Fin 1))
def piLab (c : Dev nD) : Fin 8192 → BitVec 32 := fun b => piArr m c (ix2 (0 : Fin 1) b)

/-- The four blocks point `t` reads. -/
abbrev ntBlk (c : Dev nD) (t : Fin cfg0.N) : FVec Ideal S1024x128 .f32 := iblk m c 0 t
abbrev niBlk (c : Dev nD) (t : Fin cfg0.N) : FVec Ideal S1024x128 .f32 := iblk m c 1 t
abbrev ptBlk (c : Dev nD) (t : Fin cfg0.N) : IVec S1024x1 32 := iblk m c 2 t
abbrev piBlk (c : Dev nD) (t : Fin cfg0.N) : IVec S1x1024 32 := iblk m c 3 t

/-- Which block of each array point `t` reads or writes, decided over the grid: the target side moves with `t % 8`,
    the input side and both outputs with `t / 8`. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = t.val / 8
    ∧ win0_4.index t (0 : Fin 2) = 0 ∧ win0_4.index t (1 : Fin 2) = t.val / 8
    ∧ win0_5.index t (0 : Fin 2) = 0 ∧ win0_5.index t (1 : Fin 2) = t.val / 8 :=
  (by decide +kernel : ∀ t : Fin grid0.N, _)

theorem lt64 (t : Fin cfg0.N) : t.val < 64 := lt_of_lt_of_eq t.isLt (show cfg0.N = 64 from N_0)

/-- Row `r` of the target block at point `t` is target pixel `(t % 8) · 1024 + r`. -/
theorem ntBlk_apply (c : Dev nD) (t : Fin cfg0.N) (r : Fin 1024) (k : Fin 128) :
    ntBlk m c t (ix2 r k) = ntRow m c (at1024 (t.val % 8) r) k := by
  obtain ⟨e0, e1, -⟩ := idx_facts t
  have hN := lt64 t
  show V m c main_v13 (((cfg0.win 0).blk t).view.emb (ix2 r k)) = V m c main_v13 (ix2 (at1024 (t.val % 8) r) k)
  refine congrArg (V m c main_v13) (funext fun a => Fin.ext ?_)
  match a with
  | ⟨0, _⟩ => show win0_0.index t (0 : Fin 2) * 1024 + 1 * r.val = (at1024 (t.val % 8) r).val; rw [at1024_val (by omega)]; omega
  | ⟨1, _⟩ => show win0_0.index t (1 : Fin 2) * 128 + 1 * k.val = k.val; omega

/-- Row `b` of the input block at point `t` is input pixel `(t / 8) · 1024 + b`. -/
theorem niBlk_apply (c : Dev nD) (t : Fin cfg0.N) (b : Fin 1024) (k : Fin 128) :
    niBlk m c t (ix2 b k) = niRow m c (at1024 (t.val / 8) b) k := by
  obtain ⟨-, -, e0, e1, -⟩ := idx_facts t
  have hN := lt64 t
  show V m c main_v6 (((cfg0.win 1).blk t).view.emb (ix2 b k)) = V m c main_v6 (ix2 (at1024 (t.val / 8) b) k)
  refine congrArg (V m c main_v6) (funext fun a => Fin.ext ?_)
  match a with
  | ⟨0, _⟩ => show win0_1.index t (0 : Fin 2) * 1024 + 1 * b.val = (at1024 (t.val / 8) b).val; rw [at1024_val (by omega)]; omega
  | ⟨1, _⟩ => show win0_1.index t (1 : Fin 2) * 128 + 1 * k.val = k.val; omega

/-- Entry `r` of the target labels' block. -/
theorem ptBlk_apply (c : Dev nD) (t : Fin cfg0.N) (r : Fin 1024) :
    ptBlk m c t (ix2 r (0 : Fin 1)) = ptLab m c (at1024 (t.val % 8) r) := by
  obtain ⟨-, -, -, -, e0, e1, -⟩ := idx_facts t
  have hN := lt64 t
  show V m c main_v16 (((cfg0.win 2).blk t).view.emb (ix2 r (0 : Fin 1))) = V m c main_v16 (ix2 (at1024 (t.val % 8) r) (0 : Fin 1))
  refine congrArg (V m c main_v16) (funext fun a => Fin.ext ?_)
  match a with
  | ⟨0, _⟩ => show win0_2.index t (0 : Fin 2) * 1024 + 1 * r.val = (at1024 (t.val % 8) r).val; rw [at1024_val (by omega)]; omega
  | ⟨1, _⟩ => show win0_2.index t (1 : Fin 2) * 1 + 1 * 0 = 0; omega

/-- Entry `b` of the input labels' block. -/
theorem piBlk_apply (c : Dev nD) (t : Fin cfg0.N) (b : Fin 1024) :
    piBlk m c t (ix2 (0 : Fin 1) b) = piLab m c (at1024 (t.val / 8) b) := by
  obtain ⟨-, -, -, -, -, -, e0, e1, -⟩ := idx_facts t
  have hN := lt64 t
  show V m c main_v17 (((cfg0.win 3).blk t).view.emb (ix2 (0 : Fin 1) b)) = V m c main_v17 (ix2 (0 : Fin 1) (at1024 (t.val / 8) b))
  refine congrArg (V m c main_v17) (funext fun a => Fin.ext ?_)
  match a with
  | ⟨0, _⟩ => show win0_3.index t (0 : Fin 2) * 1 + 1 * 0 = 0; omega
  | ⟨1, _⟩ => show win0_3.index t (1 : Fin 2) * 1024 + 1 * b.val = (at1024 (t.val / 8) b).val; rw [at1024_val (by omega)]; omega

/-! ## What a point leaves, as payload terms of its blocks -/

/-- At a point that starts a row of the grid: the sums restart from zero, and the output blocks are copies. -/
theorem left_first (c : Dev nD) (t : Fin cfg0.N) (h0 : t.val % 8 = 0) :
    (outsAt0 m c t.val t.isLt).2.2.1 = k0_pay5 (F := Ideal) (ntBlk m c t) (niBlk m c t) (ptBlk m c t) (piBlk m c t) (k0_pay2 (F := Ideal))
    ∧ (outsAt0 m c t.val t.isLt).2.2.2 = k0_pay1 (F := Ideal) (k0_pay6 (F := Ideal) (ntBlk m c t) (niBlk m c t) (k0_pay3 (F := Ideal)))
    ∧ (outsAt0 m c t.val t.isLt).1 = (outsAt0 m c t.val t.isLt).2.2.1
    ∧ (outsAt0 m c t.val t.isLt).2.1 = (outsAt0 m c t.val t.isLt).2.2.2 := by
  rw [outsAt0_A m c t h0]
  dsimp only
  have hc : cond0_0 (grid0.coords t) := (hcond0_0 t).mpr h0
  have a0 := Found.nomAcc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc (iblk m c 0 t) (iblk m c 1 t) (iblk m c 2 t) (iblk m c 3 t)
  have a1 := Found.denAcc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc (iblk m c 0 t) (iblk m c 1 t) (iblk m c 2 t) (iblk m c 3 t)
  have o0 := Found.nomOut_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc (iblk m c 0 t) (iblk m c 1 t) (iblk m c 2 t) (iblk m c 3 t)
  have o1 := Found.denOut_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc (iblk m c 0 t) (iblk m c 1 t) (iblk m c 2 t) (iblk m c 3 t)
  exact ⟨a0, a1, o0.trans a0.symm, o1.trans a1.symm⟩

/-- At any other point: the same is added to what the point before left. -/
theorem left_next (c : Dev nD) (t : Fin cfg0.N) (h0 : ¬t.val % 8 = 0) :
    (outsAt0 m c t.val t.isLt).2.2.1 = k0_pay5 (F := Ideal) (ntBlk m c t) (niBlk m c t) (ptBlk m c t) (piBlk m c t)
        (outsAt0 m c (t.val - 1) (Nat.lt_of_le_of_lt (Nat.sub_le _ _) t.isLt)).2.2.1
    ∧ (outsAt0 m c t.val t.isLt).2.2.2 = k0_pay1 (F := Ideal) (k0_pay6 (F := Ideal) (ntBlk m c t) (niBlk m c t)
        (outsAt0 m c (t.val - 1) (Nat.lt_of_le_of_lt (Nat.sub_le _ _) t.isLt)).2.2.2)
    ∧ (outsAt0 m c t.val t.isLt).1 = (outsAt0 m c t.val t.isLt).2.2.1
    ∧ (outsAt0 m c t.val t.isLt).2.1 = (outsAt0 m c t.val t.isLt).2.2.2 := by
  rw [outsAt0_B m c t h0]
  dsimp only
  have hc : ¬cond0_0 (grid0.coords t) := fun h => h0 ((hcond0_0 t).mp h)
  have a0 := Found.nomAcc_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc (iblk m c 0 t) (iblk m c 1 t) (iblk m c 2 t) (iblk m c 3 t)
    (outsAt0 m c (t.val - 1) (Nat.lt_of_le_of_lt (Nat.sub_le _ _) t.isLt)).2.2.1 (outsAt0 m c (t.val - 1) (Nat.lt_of_le_of_lt (Nat.sub_le _ _) t.isLt)).2.2.2
  have a1 := Found.denAcc_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc (iblk m c 0 t) (iblk m c 1 t) (iblk m c 2 t) (iblk m c 3 t)
    (outsAt0 m c (t.val - 1) (Nat.lt_of_le_of_lt (Nat.sub_le _ _) t.isLt)).2.2.1 (outsAt0 m c (t.val - 1) (Nat.lt_of_le_of_lt (Nat.sub_le _ _) t.isLt)).2.2.2
  have o0 := Found.nomOut_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc (iblk m c 0 t) (iblk m c 1 t) (iblk m c 2 t) (iblk m c 3 t)
    (outsAt0 m c (t.val - 1) (Nat.lt_of_le_of_lt (Nat.sub_le _ _) t.isLt)).2.2.1 (outsAt0 m c (t.val - 1) (Nat.lt_of_le_of_lt (Nat.sub_le _ _) t.isLt)).2.2.2
  have o1 := Found.denOut_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc (iblk m c 0 t) (iblk m c 1 t) (iblk m c 2 t) (iblk m c 3 t)
    (outsAt0 m c (t.val - 1) (Nat.lt_of_le_of_lt (Nat.sub_le _ _) t.isLt)).2.2.1 (outsAt0 m c (t.val - 1) (Nat.lt_of_le_of_lt (Nat.sub_le _ _) t.isLt)).2.2.2
  exact ⟨a0, a1, o0.trans a0.symm, o1.trans a1.symm⟩

/-! ## The running sums -/

/-- The matched weights, and all the weights, of the first `k` target blocks against input pixel `i · 1024 + b`. -/
def nomUpTo (c : Dev nD) (i k : ℕ) (b : Fin 1024) : EReal :=
  ∑ j ∈ Finset.range k, ∑ r : Fin 1024, matched (ntRow m c) (niRow m c) (ptLab m c) (piLab m c) (at1024 j r) (at1024 i b)
def denUpTo (c : Dev nD) (i k : ℕ) (b : Fin 1024) : EReal :=
  ∑ j ∈ Finset.range k, ∑ r : Fin 1024, weight (ntRow m c) (niRow m c) (at1024 j r) (at1024 i b)

/-- Entry (r, b) of the weight matrix at point `t` is the weight of target pixel `(t % 8) · 1024 + r` and input pixel
    `(t / 8) · 1024 + b`. -/
theorem blockWeight (c : Dev nD) (t : Fin cfg0.N) (r b : Fin 1024) :
    k0_pay4 (F := Ideal) (ntBlk m c t) (niBlk m c t) (ix2 r b)
      = weight (ntRow m c) (niRow m c) (at1024 (t.val % 8) r) (at1024 (t.val / 8) b) := by
  refine (Payload.weights_apply (ntBlk m c t) (niBlk m c t) r b).trans ?_
  unfold weight sim
  refine congrArg (fun s => Ideal.exp (s * invTau)) (Finset.sum_congr rfl fun k _ => ?_)
  rw [ntBlk_apply, niBlk_apply]

/-- What the point adds to the first sum is its target block's matched weights. -/
theorem nomStep (c : Dev nD) (t : Fin cfg0.N) (acc : FVec Ideal S1x1024 .f32) (b : Fin 1024) :
    k0_pay5 (F := Ideal) (ntBlk m c t) (niBlk m c t) (ptBlk m c t) (piBlk m c t) acc (ix2 (0 : Fin 1) b)
      = acc (ix2 (0 : Fin 1) b) + ∑ r : Fin 1024,
          matched (ntRow m c) (niRow m c) (ptLab m c) (piLab m c) (at1024 (t.val % 8) r) (at1024 (t.val / 8) b) := by
  refine (Payload.maskedStep_apply (ntBlk m c t) (niBlk m c t) (ptBlk m c t) (piBlk m c t) acc b).trans ?_
  refine congrArg (acc (ix2 (0 : Fin 1) b) + ·) (Finset.sum_congr rfl fun r _ => ?_)
  unfold matched
  rw [ptBlk_apply, piBlk_apply, blockWeight]

/-- What it adds to the second is all of the block's weights. -/
theorem denStep (c : Dev nD) (t : Fin cfg0.N) (acc : FVec Ideal S1x1024 .f32) (b : Fin 1024) :
    k0_pay1 (F := Ideal) (k0_pay6 (F := Ideal) (ntBlk m c t) (niBlk m c t) acc) (ix2 (0 : Fin 1) b)
      = acc (ix2 (0 : Fin 1) b) + ∑ r : Fin 1024,
          weight (ntRow m c) (niRow m c) (at1024 (t.val % 8) r) (at1024 (t.val / 8) b) := by
  rw [Payload.copy_eq]
  refine (Payload.plainStep_apply (ntBlk m c t) (niBlk m c t) acc b).trans ?_
  exact congrArg (acc (ix2 (0 : Fin 1) b) + ·) (Finset.sum_congr rfl fun r _ => blockWeight m c t r b)

/-- The two running sums after point `t`, in column `b`. -/
def SumsAt (c : Dev nD) (t : Fin cfg0.N) (b : Fin 1024) : Prop :=
  (outsAt0 m c t.val t.isLt).2.2.1 (ix2 (0 : Fin 1) b) = nomUpTo m c (t.val / 8) (t.val % 8 + 1) b
  ∧ (outsAt0 m c t.val t.isLt).2.2.2 (ix2 (0 : Fin 1) b) = denUpTo m c (t.val / 8) (t.val % 8 + 1) b

/-- At the start of a row of the grid: the first block's sums. -/
theorem sums_first (c : Dev nD) (t : Fin cfg0.N) (h0 : t.val % 8 = 0) (b : Fin 1024) : SumsAt m c t b := by
  obtain ⟨e1, e2, -, -⟩ := left_first m c t h0
  refine ⟨(congrFun e1 _).trans ?_, (congrFun e2 _).trans ?_⟩
  · rw [nomStep, (Payload.zeroRow_apply _).1, zero_add, h0]
    unfold nomUpTo
    rw [Finset.sum_range_succ, Finset.sum_range_zero, zero_add]
  · rw [denStep, (Payload.zeroRow_apply _).2, zero_add, h0]
    unfold denUpTo
    rw [Finset.sum_range_succ, Finset.sum_range_zero, zero_add]

/-- Further along the row: one more block on top of what the point before left. -/
theorem sums_next (c : Dev nD) (t : Fin cfg0.N) (h0 : ¬t.val % 8 = 0) (b : Fin 1024)
    (ih : (outsAt0 m c (t.val - 1) (Nat.lt_of_le_of_lt (Nat.sub_le _ _) t.isLt)).2.2.1 (ix2 (0 : Fin 1) b)
        = nomUpTo m c ((t.val - 1) / 8) ((t.val - 1) % 8 + 1) b
      ∧ (outsAt0 m c (t.val - 1) (Nat.lt_of_le_of_lt (Nat.sub_le _ _) t.isLt)).2.2.2 (ix2 (0 : Fin 1) b)
        = denUpTo m c ((t.val - 1) / 8) ((t.val - 1) % 8 + 1) b) : SumsAt m c t b := by
  obtain ⟨e1, e2, -, -⟩ := left_next m c t h0
  have hq : (t.val - 1) / 8 = t.val / 8 := by omega
  have hr : (t.val - 1) % 8 + 1 = t.val % 8 := by omega
  refine ⟨(congrFun e1 _).trans ?_, (congrFun e2 _).trans ?_⟩
  · rw [nomStep, ih.1, hq, hr]
    unfold nomUpTo
    rw [Finset.sum_range_succ]
  · rw [denStep, ih.2, hq, hr]
    unfold denUpTo
    rw [Finset.sum_range_succ]

/-- So at every point, by induction along the grid. -/
theorem sums (c : Dev nD) (t : Fin cfg0.N) (b : Fin 1024) : SumsAt m c t b := by
  obtain ⟨n, h⟩ := t
  induction n with
  | zero => exact sums_first m c ⟨0, h⟩ rfl b
  | succ n ih =>
    by_cases h0 : (n + 1) % 8 = 0
    · exact sums_first m c ⟨n + 1, h⟩ h0 b
    · exact sums_next m c ⟨n + 1, h⟩ h0 b (ih (Nat.lt_of_succ_lt h))

/-- At the last point of a row of the grid all eight target blocks are in: the output blocks hold the numerator and
    the denominator of input pixel `(t / 8) · 1024 + b`. -/
theorem row_done (c : Dev nD) (t : Fin cfg0.N) (h7 : t.val % 8 = 7) (b : Fin 1024) :
    (outsAt0 m c t.val t.isLt).1 (ix2 (0 : Fin 1) b)
        = nom (ntRow m c) (niRow m c) (ptLab m c) (piLab m c) (at1024 (t.val / 8) b)
    ∧ (outsAt0 m c t.val t.isLt).2.1 (ix2 (0 : Fin 1) b) = den (ntRow m c) (niRow m c) (at1024 (t.val / 8) b) := by
  have h0 : ¬t.val % 8 = 0 := by omega
  obtain ⟨-, -, o1, o2⟩ := left_next m c t h0
  obtain ⟨r1, r2⟩ := sums m c t b
  have k8 : t.val % 8 + 1 = 8 := by omega
  refine ⟨(congrFun o1 _).trans (r1.trans ?_), (congrFun o2 _).trans (r2.trans ?_)⟩
  · rw [k8]
    exact sum_blocks fun a => matched (ntRow m c) (niRow m c) (ptLab m c) (piLab m c) a (at1024 (t.val / 8) b)
  · rw [k8]
    exact sum_blocks fun a => weight (ntRow m c) (niRow m c) a (at1024 (t.val / 8) b)

end Cert.KernelIdeal.Running

end
-- ==== Proof.KernelValue.lean ====
/-
  The kernel program's result: the two arrays the region leaves, and the scalar the host lines after it return.

  Every row of the grid writes back once, at its last point, block `t / 8` of the numerator and of the denominator;
  the eight blocks cover both 1 × 8192 output arrays, so after the region the first holds the numerator of every
  input pixel and the second the denominator. The host lines after the region then take the mean over the input
  pixels of `log (numerator / (denominator + ε))` and negate it.
-/
import proofs.«110403_j68083821576868_1_alg».proof.Proof.Running
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Running

open Cert.KernelIdeal Cert.KernelIdeal.Gen Idealize.ShloMosaic.ValueIdx Cert.Contrast

variable (m : (ℓ : Loc nD τ sig) → Buf (Elt Ideal) ℓ) (ρ : Dev nD → PrngReg)

/-- The numerator and the denominator of every input pixel, laid out as the 1 × 8192 output arrays. -/
abbrev nomArr (c : Dev nD) : Buf (Elt Ideal) ((c : Thread nD τ).loc main_v18_0) :=
  fun i => nom (ntRow m c) (niRow m c) (ptLab m c) (piLab m c) (i 1)
abbrev denArr (c : Dev nD) : Buf (Elt Ideal) ((c : Thread nD τ).loc main_v18_1) :=
  fun i => den (ntRow m c) (niRow m c) (i 1)

/-- What the last point of a row of the grid writes back to the first output is block `t / 8` of the numerator. -/
theorem flushed_nom (c : Dev nD) (t : Fin cfg0.N) (hf : (cfg0.win 4).flush t = true) :
    (dats m 0 c).flushed 4 t = ((cfg0.win 4).blk t).view.read (Elt Ideal) (nomArr m c) := by
  have h7 : t.val % 8 = 7 := (flush0_4 t).mp hf
  have hN := lt64 t
  obtain ⟨-, -, -, -, -, -, -, -, e0, e1, -⟩ := idx_facts t
  show (cfg0.win 4).cut (grid0.coords t) ((dats m 0 c).after 4 t) = _
  rw [after0_4]
  funext y
  obtain ⟨u, b, rfl⟩ : ∃ (u : Fin 1) (b : Fin 1024), y = ix2 u b := ⟨y 0, y 1, eq_ix2 y⟩
  obtain rfl : u = 0 := Subsingleton.elim _ _
  refine (row_done m c t h7 b).1.trans ?_
  show nom _ _ _ _ (at1024 (t.val / 8) b) = nom _ _ _ _ ((((cfg0.win 4).blk t).view.emb (ix2 (0 : Fin 1) b)) 1)
  refine congrArg _ (Fin.ext ?_)
  show (at1024 (t.val / 8) b).val = win0_4.index t (1 : Fin 2) * 1024 + 1 * b.val
  rw [at1024_val (by omega)]; omega

/-- And to the second, block `t / 8` of the denominator. -/
theorem flushed_den (c : Dev nD) (t : Fin cfg0.N) (hf : (cfg0.win 5).flush t = true) :
    (dats m 0 c).flushed 5 t = ((cfg0.win 5).blk t).view.read (Elt Ideal) (denArr m c) := by
  have h7 : t.val % 8 = 7 := (flush0_5 t).mp hf
  have hN := lt64 t
  obtain ⟨-, -, -, -, -, -, -, -, -, -, e0, e1⟩ := idx_facts t
  show (cfg0.win 5).cut (grid0.coords t) ((dats m 0 c).after 5 t) = _
  rw [after0_5]
  funext y
  obtain ⟨u, b, rfl⟩ : ∃ (u : Fin 1) (b : Fin 1024), y = ix2 u b := ⟨y 0, y 1, eq_ix2 y⟩
  obtain rfl : u = 0 := Subsingleton.elim _ _
  refine (row_done m c t h7 b).2.trans ?_
  show den _ _ (at1024 (t.val / 8) b) = den _ _ ((((cfg0.win 5).blk t).view.emb (ix2 (0 : Fin 1) b)) 1)
  refine congrArg _ (Fin.ext ?_)
  show (at1024 (t.val / 8) b).val = win0_5.index t (1 : Fin 2) * 1024 + 1 * b.val
  rw [at1024_val (by omega)]; omega

/-- An index of an output array is in point `t`'s block iff each coordinate is in the block's range on its axis. -/
theorem mem_blk_nom (t : Fin cfg0.N) (i : S1x8192.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v18_0).slice (win0_4.rect t)).set ↔ _
  rw [View.set_slice_whole, Rect.mem_set_unit]
  exact Iff.rfl

theorem mem_blk_den (t : Fin cfg0.N) (i : S1x8192.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v18_1).slice (win0_5.rect t)).set ↔ _
  rw [View.set_slice_whole, Rect.mem_set_unit]
  exact Iff.rfl

/-- Input pixel `i` is written back by the last point of row `i / 1024` of the grid. -/
theorem cover_nom (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 64 := N_0
  have ht : (i 1).val / 1024 * 8 + 7 < cfg0.N := by omega
  refine ⟨⟨(i 1).val / 1024 * 8 + 7, ht⟩, (flush0_4 _).mpr (by show ((i 1).val / 1024 * 8 + 7) % 8 = 7; omega), ?_⟩
  rw [mem_blk_nom]
  obtain ⟨-, -, -, -, -, -, -, -, e0, e1, -⟩ := idx_facts ⟨(i 1).val / 1024 * 8 + 7, ht⟩
  have tv : (⟨(i 1).val / 1024 * 8 + 7, ht⟩ : Fin cfg0.N).val = (i 1).val / 1024 * 8 + 7 := rfl
  intro a
  match a with
  | ⟨0, _⟩ => show win0_4.index _ (0 : Fin 2) * 1 ≤ (i 0).val ∧ (i 0).val < win0_4.index _ (0 : Fin 2) * 1 + 1; omega
  | ⟨1, _⟩ => show win0_4.index _ (1 : Fin 2) * 1024 ≤ (i 1).val ∧ (i 1).val < win0_4.index _ (1 : Fin 2) * 1024 + 1024; omega

theorem cover_den (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 64 := N_0
  have ht : (i 1).val / 1024 * 8 + 7 < cfg0.N := by omega
  refine ⟨⟨(i 1).val / 1024 * 8 + 7, ht⟩, (flush0_5 _).mpr (by show ((i 1).val / 1024 * 8 + 7) % 8 = 7; omega), ?_⟩
  rw [mem_blk_den]
  obtain ⟨-, -, -, -, -, -, -, -, -, -, e0, e1⟩ := idx_facts ⟨(i 1).val / 1024 * 8 + 7, ht⟩
  have tv : (⟨(i 1).val / 1024 * 8 + 7, ht⟩ : Fin cfg0.N).val = (i 1).val / 1024 * 8 + 7 := rfl
  intro a
  match a with
  | ⟨0, _⟩ => show win0_5.index _ (0 : Fin 2) * 1 ≤ (i 0).val ∧ (i 0).val < win0_5.index _ (0 : Fin 2) * 1 + 1; omega
  | ⟨1, _⟩ => show win0_5.index _ (1 : Fin 2) * 1024 ≤ (i 1).val ∧ (i 1).val < win0_5.index _ (1 : Fin 2) * 1024 + 1024; omega

/-- After the region the two output arrays hold the numerator and the denominator of every input pixel. -/
theorem final_nom (c : Dev nD) : (dats m 0 c).arrAt 4 cfg0.N = nomArr m c :=
  (dats m 0 c).arrAt_eq_of_cover 4 (nomArr m c) (flushed_nom m c) cover_nom

theorem final_den (c : Dev nD) : (dats m 0 c).arrAt 5 cfg0.N = denArr m c :=
  (dats m 0 c).arrAt_eq_of_cover 5 (denArr m c) (flushed_den m c) cover_den

end Cert.KernelIdeal.Running

end
-- ==== Proof.Loss.lean ====
/-
  The loss both programs end with, as one function of the numerator and the denominator of every input pixel: minus the
  mean over the 8192 input pixels of `log (numerator / (denominator + ε))`, with `ε` the number the pattern
  `0x322BCC77` denotes, written with the host's operations so that it reads at any instance.
-/
import Idealize.ShloMosaic.PureOps.Ideal

noncomputable section

namespace Cert.Contrast

open Idealize.ShloMosaic

abbrev Pixels : Shape := ⟨1, ![8192]⟩
abbrev Scalar0 : Shape := ⟨0, ![]⟩

/-- Minus the mean of `log (nom / (den + ε))` over the input pixels. -/
def loss {F : FTy → Type} [FloatOps F] (hb : Scalar0.BroadcastsInDim Pixels (![] : Fin 0 → Fin Pixels.rank))
    (hr : Pixels.ReducesTo [0] Scalar0) (hs : 0 < Scalar0.numel) (nom den : FVec F Pixels .f32) : FVec F Scalar0 .f32 :=
  Host.negf (Host.divf
    (Host.reduceAdd
      (Host.log (Host.divf nom (addf den (broadcastInDim Pixels ![] hb (constant Scalar0 .f32 0x322BCC77#32)))))
      (constant Scalar0 .f32 0x00000000#32) hr hs)
    (constant Scalar0 .f32 0x46000000#32))

end Cert.Contrast

end
-- ==== Proof.KernelRun.lean ====
/-
  The kernel program's run, read: its result is the loss of the numerator and the denominator the region leaves.

  The host lines after the region flatten the two 1 × 8192 arrays to 8192 entries each — entry `b` is the array's
  entry (0, b) — and apply the loss.
-/
import proofs.«110403_j68083821576868_1_alg».proof.Proof.KernelValue
import proofs.«110403_j68083821576868_1_alg».proof.Proof.Loss
import Idealize.ShloMosaic.Lib.StableHlo.Run
import Idealize.ShloMosaic.Lib.ValueLayout

noncomputable section

open scoped BigOperators

open Idealize.ShloMosaic Idealize.ShloMosaic.TcCoe Idealize.SL.Sem
open Idealize.ShloMosaic.Pipeline (Dat)

namespace Cert.KernelIdeal.Running

open Cert.KernelIdeal Cert.KernelIdeal.Gen Idealize.ShloMosaic.ValueIdx Cert.Contrast Idealize.ShloMosaic.StableHlo

variable (m : (ℓ : Loc nD τ sig) → Buf (Elt Ideal) ℓ) (ρ : Dev nD → PrngReg)

/-- The kernel program's result: the loss of the numerator and the denominator of every input pixel. -/
def result (c : Dev nD) : Buf (Elt Ideal) ((c : Thread nD τ).loc main_v27) :=
  loss (F := Ideal) bcast_S_S8192 reducesTo_S8192_S_d0 h_S_
    (fun i => nom (ntRow m c) (niRow m c) (ptLab m c) (piLab m c) (i 0))
    (fun i => den (ntRow m c) (niRow m c) (i 0))

/-- The first output array after the region, flattened. -/
theorem nomVec (c : Dev nD) :
    shapeCast S8192 (Pipeline.withArrays spec0 c (V0 m c) (fun w => (dats m 0 c).arrAt w cfg0.N) (Proc.devRef .tc main_v18_0))
        shapeCasts_S1x8192_S8192
      = fun i => nom (ntRow m c) (niRow m c) (ptLab m c) (piLab m c) (i 0) := by
  have e : Pipeline.withArrays spec0 c (V0 m c) (fun w => (dats m 0 c).arrAt w cfg0.N) (Proc.devRef .tc main_v18_0) = nomArr m c :=
    (Pipeline.withArrays_arr spec0 launch0.win.arr_inj c _ _ 4).trans (final_nom m c)
  funext i
  rw [eq_ix1 i]
  refine (shapeCast_1a_a_apply _ shapeCasts_S1x8192_S8192 (i 0)).trans ?_
  exact congrFun e (ix2 (0 : Fin 1) (i 0))

/-- The second output array after the region, flattened. -/
theorem denVec (c : Dev nD) :
    shapeCast S8192 (Pipeline.withArrays spec0 c (V0 m c) (fun w => (dats m 0 c).arrAt w cfg0.N) (Proc.devRef .tc main_v18_1))
        shapeCasts_S1x8192_S8192
      = fun i => den (ntRow m c) (niRow m c) (i 0) := by
  have e : Pipeline.withArrays spec0 c (V0 m c) (fun w => (dats m 0 c).arrAt w cfg0.N) (Proc.devRef .tc main_v18_1) = denArr m c :=
    (Pipeline.withArrays_arr spec0 launch0.win.arr_inj c _ _ 5).trans (final_den m c)
  funext i
  rw [eq_ix1 i]
  refine (shapeCast_1a_a_apply _ shapeCasts_S1x8192_S8192 (i 0)).trans ?_
  exact congrFun e (ix2 (0 : Fin 1) (i 0))

/-- What the host lines after the region leave in the result. -/
theorem tail_eq (c : Dev nD) : Pipeline.afterTail₀ cfgs (dats m) 0 (V0 m) [hostOps1] c main_v27 = result m c := by
  unfold Pipeline.afterTail₀
  show StableHlo.after hostOps1 _ (Proc.devRef .tc main_v27) = _
  after_results
  show loss (F := Ideal) bcast_S_S8192 reducesTo_S8192_S_d0 h_S_
    (shapeCast S8192 (Pipeline.withArrays spec0 c (V0 m c) (fun w => (dats m 0 c).arrAt w cfg0.N) (Proc.devRef .tc main_v18_0)) shapeCasts_S1x8192_S8192)
    (shapeCast S8192 (Pipeline.withArrays spec0 c (V0 m c) (fun w => (dats m 0 c).arrAt w cfg0.N) (Proc.devRef .tc main_v18_1)) shapeCasts_S1x8192_S8192) = _
  rw [nomVec, denVec]
  rfl

/-- Every weakly fair execution of the kernel program ends with its result at that loss and its arguments unchanged. -/
theorem run : θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v27 (Pipeline.mem_restRefs_of main_v27 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Running

end
-- ==== Proof.RefLaws.lean ====
/-
  The reference's spelling of the same quantities, one pair of pixels at a time, over the extended reals.

  The reference divides the inner product by the temperature `τ`, the number the pattern `0x3D8F5C29` denotes
  (9395241 / 134217728); dividing by a nonzero real is multiplying by its reciprocal, at the infinities too. It marks a
  pair whose labels differ with `d = 1` and a pair whose labels agree with `d = 0`, takes `(1 - d) · w` for the numerator and
  `d · w + (1 - d) · w` for the denominator: with `d` zero or one these are "`w` where the labels agree, else zero" and `w`
  itself, for every extended real `w` (zero times anything is zero here, so no finiteness is needed).
-/
import proofs.«110403_j68083821576868_1_alg».proof.Proof.Spec

noncomputable section

namespace Cert.Contrast

open Idealize.ShloMosaic

/-- The temperature's pattern denotes 9395241 / 134217728. -/
theorem ofBits_tau : Ideal.ofBits .f32 0x3D8F5C29#32 = ((9395241 / 134217728 : ℝ) : EReal) := by
  simp [Ideal.ofBits, Ideal.ieee, -EReal.coe_mul]; norm_num

/-- `1.0` denotes one. -/
theorem ofBits_one : Ideal.ofBits .f32 0x3F800000#32 = 1 := by
  simp [Ideal.ofBits, Ideal.ieee, -EReal.coe_mul]; norm_num

/-- Dividing by the temperature is multiplying by its reciprocal. -/
theorem div_tau (x : EReal) : Ideal.div x (Ideal.ofBits .f32 0x3D8F5C29#32) = x * invTau := by
  rw [ofBits_tau, Ideal.div_coe (by norm_num)]
  congr 2
  norm_num

/-- The label test as a number: one where the labels differ, zero where they agree. -/
def differ (p q : BitVec 32) : EReal := (((IntOp.cmpi .ne q p).toNat : ℝ) : EReal)

theorem differ_of_eq {p q : BitVec 32} (h : p = q) : differ p q = 0 := by
  subst h; simp [differ, IntOp.cmpi]

theorem differ_of_ne {p q : BitVec 32} (h : p ≠ q) : differ p q = 1 := by
  have : (q != p) = true := by simpa [bne_iff_ne] using fun e : q = p => h e.symm
  simp [differ, IntOp.cmpi, this]

/-- One minus one is zero (both are finite). -/
theorem one_sub_one : (1 : EReal) - 1 = 0 := by
  rw [← EReal.coe_one, ← EReal.coe_sub, sub_self, EReal.coe_zero]

/-- The numerator's term: `(1 - d) · w` is `w` where the labels agree and zero elsewhere. -/
theorem one_sub_differ_mul (p q : BitVec 32) (w : EReal) :
    (1 - differ p q) * w = Scalar.select (IntOp.cmpi .eq p q) w 0 := by
  by_cases h : p = q
  · rw [differ_of_eq h]; subst h; simp [Scalar.select, IntOp.cmpi]
  · rw [differ_of_ne h]
    have : (p == q) = false := by simpa using h
    simp [Scalar.select, IntOp.cmpi, this, one_sub_one]

/-- The denominator's term: `d · w + (1 - d) · w` is `w`. -/
theorem differ_mul_add (p q : BitVec 32) (w : EReal) :
    differ p q * w + (1 - differ p q) * w = w := by
  by_cases h : p = q
  · rw [differ_of_eq h]; simp
  · rw [differ_of_ne h, one_sub_one]; simp

end Cert.Contrast

end
-- ==== Proof.RefValue.lean ====
/-
  The reference program's numerator and denominator are the two sums of the specification, of its own unit rows and
  label lists; and its result is the loss of them.

  Pair by pair: the reference's weight is `exp (sim / τ)`, which is `exp (sim · (1/τ))`; its numerator's term
  `(1 - d) · w` is the weight where the labels agree and zero elsewhere; its denominator adds `Σ d · w` and the
  numerator, which term by term is `Σ w`.
-/
import proofs.«110403_j68083821576868_1_alg».proof.Proof.Gen.ReferenceIdeal.Read
import proofs.«110403_j68083821576868_1_alg».proof.Proof.RefLaws
import proofs.«110403_j68083821576868_1_alg».proof.Proof.LibDotRows
import proofs.«110403_j68083821576868_1_alg».proof.Proof.Loss

noncomputable section

open scoped BigOperators

namespace Cert.ReferenceIdeal.Sums

open Cert.ReferenceIdeal Cert.ReferenceIdeal.Gen Cert.ReferenceIdeal.Read
open Idealize.ShloMosaic Idealize.ShloMosaic.ValueIdx Cert.Contrast

variable (x0 x1 : (⟨S2x128x64x64, .f32⟩ : BufTy).Contents (Elt Ideal)) (x2 x3 : (⟨S2x64x64, .i32⟩ : BufTy).Contents (Elt Ideal))

/-- The reference's unit target rows and unit input rows by pixel, and its two label lists. -/
def ntRow : Fin 8192 → Fin 128 → EReal := fun a k => val_main_v13 (F := Ideal) x1 (ix2 a k)
def niRow : Fin 8192 → Fin 128 → EReal := fun b k => val_main_v6 (F := Ideal) x0 (ix2 b k)
def ptLab : Fin 8192 → BitVec 32 := fun a => val_main_v15 (F := Ideal) x3 (ix1 a)
def piLab : Fin 8192 → BitVec 32 := fun b => val_main_v14 (F := Ideal) x2 (ix1 b)

/-- The weight of target pixel `a` and input pixel `b`. -/
theorem weight_apply (a b : Fin 8192) :
    val_main_v19 (F := Ideal) x0 x1 (ix2 a b) = weight (ntRow x1) (niRow x0) a b := by
  rw [val_main_v19_apply, val_main_v18_apply, val_main_v17_apply, val_main_cst_1_apply]
  show Ideal.exp (Ideal.div (val_main_v16 (F := Ideal) x0 x1 (ix2 a b)) (Ideal.ofBits .f32 0x3D8F5C29#32)) = _
  rw [div_tau]
  unfold weight sim val_main_v16
  rw [Cert.LibDot.dotGeneral_11_apply _ rfl rfl rfl rfl rfl rfl]
  rfl

/-- The label test of the pair. -/
theorem differ_apply (a b : Fin 8192) :
    val_main_v25 (F := Ideal) x2 x3 (ix2 a b) = differ (ptLab x3 a) (piLab x2 b) := by
  rw [val_main_v25_apply, val_main_v24_apply, val_main_v22_apply, val_main_v20_apply, val_main_v23_apply, val_main_v21_apply]
  have e1 : idx_main_v20 (idx_main_v22 (ix2 a b)) = ix1 b := funext fun d => by match d with | ⟨0, _⟩ => rfl
  have e2 : idx_main_v21 (idx_main_v23 (ix2 a b)) = ix1 a := funext fun d => by match d with | ⟨0, _⟩ => rfl
  rw [e1, e2]
  rfl

/-- The numerator's term of the pair, as the reference spells it. -/
theorem nomTerm_form (a b : Fin 8192) :
    val_main_v28 (F := Ideal) x0 x1 x2 x3 (ix2 a b)
      = (1 - differ (ptLab x3 a) (piLab x2 b)) * weight (ntRow x1) (niRow x0) a b := by
  rw [val_main_v28_apply, val_main_v27_apply, val_main_v26_apply, val_main_cst_2_apply, differ_apply, weight_apply]
  show (Ideal.ofBits .f32 0x3F800000#32 - _) * _ = _
  rw [ofBits_one]

/-- The term the denominator adds besides. -/
theorem denTerm_form (a b : Fin 8192) :
    val_main_v30 (F := Ideal) x0 x1 x2 x3 (ix2 a b)
      = differ (ptLab x3 a) (piLab x2 b) * weight (ntRow x1) (niRow x0) a b := by
  rw [val_main_v30_apply, differ_apply, weight_apply]
  rfl

theorem idx29 (b a : Fin 8192) : idx_main_v29 (ix1 b) a = ix2 a b :=
  funext fun d => by match d with | ⟨0, _⟩ => rfl | ⟨1, _⟩ => rfl
theorem idx31 (b a : Fin 8192) : idx_main_v31 (ix1 b) a = ix2 a b :=
  funext fun d => by match d with | ⟨0, _⟩ => rfl | ⟨1, _⟩ => rfl

/-- The reference's numerator at input pixel `b`. -/
theorem nom_apply (b : Fin 8192) :
    val_main_v29 (F := Ideal) x0 x1 x2 x3 (ix1 b) = nom (ntRow x1) (niRow x0) (ptLab x3) (piLab x2) b := by
  rw [val_main_v29_apply, val_main_cst_3_apply]
  show Ideal.ofBits .f32 0x00000000#32 + _ = _
  rw [Ideal.ofBits_zero_f32, zero_add]
  unfold nom matched
  refine Finset.sum_congr rfl fun a _ => ?_
  rw [idx29, nomTerm_form, one_sub_differ_mul]

/-- The reference's denominator at input pixel `b`. -/
theorem den_apply (b : Fin 8192) :
    val_main_v32 (F := Ideal) x0 x1 x2 x3 (ix1 b) = den (ntRow x1) (niRow x0) b := by
  rw [val_main_v32_apply, val_main_v31_apply, val_main_v29_apply, val_main_cst_4_apply, val_main_cst_3_apply]
  show (Ideal.ofBits .f32 0x00000000#32 + _) + (Ideal.ofBits .f32 0x00000000#32 + _) = _
  rw [Ideal.ofBits_zero_f32, zero_add, zero_add, ← Finset.sum_add_distrib]
  unfold den
  refine Finset.sum_congr rfl fun a _ => ?_
  rw [idx31, idx29, denTerm_form, nomTerm_form, differ_mul_add]

/-- The reference's result is the loss of its numerator and denominator. -/
theorem result_eq :
    val_main_v39 (F := Ideal) x0 x1 x2 x3
      = loss (F := Ideal) bcast_S_S8192 reducesTo_S8192_S_d0 h_S_
          (fun i => nom (ntRow x1) (niRow x0) (ptLab x3) (piLab x2) (i 0))
          (fun i => den (ntRow x1) (niRow x0) (i 0)) := by
  have hn : val_main_v29 (F := Ideal) x0 x1 x2 x3 = fun i => nom (ntRow x1) (niRow x0) (ptLab x3) (piLab x2) (i 0) :=
    funext fun i => by rw [eq_ix1 i]; exact nom_apply x0 x1 x2 x3 (i 0)
  have hd : val_main_v32 (F := Ideal) x0 x1 x2 x3 = fun i => den (ntRow x1) (niRow x0) (i 0) :=
    funext fun i => by rw [eq_ix1 i]; exact den_apply x0 x1 x2 x3 (i 0)
  rw [← hn, ← hd]
  rfl

end Cert.ReferenceIdeal.Sums

end
-- ==== Proof.Bridge.lean ====
/-
  The two programs compute their unit rows and their label lists by the same host lines before anything else: the
  kernel program's region finds, and the reference's sums read, the same four arrays of the same arguments.

  The rows are the arguments moved to pixel-major order, each row divided by the larger of its length and a floor; the
  labels are the integer arguments flattened. The kernel program lays the target labels out as a column and the input
  labels as a row, which changes where an entry sits and not what it is.
-/
import proofs.«110403_j68083821576868_1_alg».proof.Proof.KernelRun
import proofs.«110403_j68083821576868_1_alg».proof.Proof.RefValue

noncomputable section

open scoped BigOperators

open Idealize.ShloMosaic Idealize.ShloMosaic.TcCoe Idealize.SL.Sem

namespace Cert.KernelIdeal.Running

open Cert.KernelIdeal Cert.KernelIdeal.Gen Idealize.ShloMosaic.ValueIdx Cert.Contrast Idealize.ShloMosaic.StableHlo

variable (m : (ℓ : Loc nD τ sig) → Buf (Elt Ideal) ℓ)

/-- A list of `a` entries laid out as a column: entry (i, 0) is the list's entry `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The unit target rows the region finds are the reference's, of the same argument. -/
theorem entry_nt (c : Dev nD) :
    V m c main_v13 = Cert.ReferenceIdeal.Read.val_main_v13 (F := Ideal) (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  rfl

/-- The unit input rows likewise. -/
theorem entry_ni (c : Dev nD) :
    V m c main_v6 = Cert.ReferenceIdeal.Read.val_main_v6 (F := Ideal) (m ((c : Thread nD τ).loc main_arg0)) := by
  dsimp only [V, V0]
  simp only [hostOps0, hostOps0_1, hostOps0_2, hostOps0_3, hostOps0_4, List.flatten_cons, List.flatten_nil, List.append_nil,
    List.cons_append, List.nil_append]
  after_results
  rfl

/-- The target labels the region finds: the reference's list, as a column. -/
theorem entry_pt (c : Dev nD) :
    V m c main_v16 = shapeCast S8192x1 (Cert.ReferenceIdeal.Read.val_main_v15 (F := Ideal) (m ((c : Thread nD τ).loc main_arg3)))
      shapeCasts_S8192_S8192x1 := by
  dsimp only [V, V0]
  simp only [hostOps0, hostOps0_1, hostOps0_2, hostOps0_3, hostOps0_4, List.flatten_cons, List.flatten_nil, List.append_nil,
    List.cons_append, List.nil_append]
  after_results
  rfl

/-- The input labels the region finds: the reference's list, as a row. -/
theorem entry_pi (c : Dev nD) :
    V m c main_v17 = shapeCast S1x8192 (Cert.ReferenceIdeal.Read.val_main_v14 (F := Ideal) (m ((c : Thread nD τ).loc main_arg2)))
      shapeCasts_S8192_S1x8192 := by
  dsimp only [V, V0]
  simp only [hostOps0, hostOps0_1, hostOps0_2, hostOps0_3, hostOps0_4, List.flatten_cons, List.flatten_nil, List.append_nil,
    List.cons_append, List.nil_append]
  after_results
  rfl

theorem ntRow_eq (c : Dev nD) : ntRow m c = Cert.ReferenceIdeal.Sums.ntRow (m ((c : Thread nD τ).loc main_arg1)) := by
  funext a k
  show V m c main_v13 (ix2 a k) = _
  rw [entry_nt]; rfl

theorem niRow_eq (c : Dev nD) : niRow m c = Cert.ReferenceIdeal.Sums.niRow (m ((c : Thread nD τ).loc main_arg0)) := by
  funext b k
  show V m c main_v6 (ix2 b k) = _
  rw [entry_ni]; rfl

theorem ptLab_eq (c : Dev nD) : ptLab m c = Cert.ReferenceIdeal.Sums.ptLab (m ((c : Thread nD τ).loc main_arg3)) := by
  funext a
  show V m c main_v16 (ix2 a (0 : Fin 1)) = _
  rw [entry_pt]
  exact column_apply _ _ a 0

theorem piLab_eq (c : Dev nD) : piLab m c = Cert.ReferenceIdeal.Sums.piLab (m ((c : Thread nD τ).loc main_arg2)) := by
  funext b
  show V m c main_v17 (ix2 (0 : Fin 1) b) = _
  rw [entry_pi]
  exact shapeCast_a_1a_apply _ _ 0 b

/-- So the kernel program's result is the reference's value of the same arguments. -/
theorem result_eq_reference (c : Dev nD) :
    result m c = Cert.ReferenceIdeal.Read.val_main_v39 (F := Ideal) (m ((c : Thread nD τ).loc main_arg0))
      (m ((c : Thread nD τ).loc main_arg1)) (m ((c : Thread nD τ).loc main_arg2)) (m ((c : Thread nD τ).loc main_arg3)) := by
  rw [Cert.ReferenceIdeal.Sums.result_eq]
  unfold result
  rw [ntRow_eq, niRow_eq, ptLab_eq, piLab_eq]

end Cert.KernelIdeal.Running

end
-- ==== Proof.lean ====
/- A contrastive loss over 8192 pixels, tiled: the kernel accumulates, block of target pixels by block, the weights
   `exp (sim · (1/τ))` of each input pixel's pairs — those with matching labels into a numerator, all of them into a
   denominator — and the host takes minus the mean of `log (numerator / (denominator + ε))`. The reference forms the whole
   8192 × 8192 weight matrix `exp (sim / τ)`, masks it with `1 - d` and `d` (`d` one where the labels differ), and sums.

   Over the extended reals the two agree: dividing by the temperature is multiplying by its reciprocal (the kernel's
   constant is named that reciprocal); a sum over 8192 target pixels is the sum of its eight blocks' sums; `(1 - d) · w` is
   `w` on matching labels and zero elsewhere, and `d · w + (1 - d) · w` is `w`. None of these needs the inputs finite.
   The unit rows and the label lists are computed by the same host lines in both programs.

   The frames of the two kernel programs are the generated ones; the reference's is its generated run. -/
import proofs.«110403_j68083821576868_1_alg».proof.Defs
import proofs.«110403_j68083821576868_1_alg».proof.Proof.Gen.Kernel
import proofs.«110403_j68083821576868_1_alg».proof.Proof.Gen.Kernel.Skeleton
import proofs.«110403_j68083821576868_1_alg».proof.Proof.Gen.Kernel.Launch
import proofs.«110403_j68083821576868_1_alg».proof.Proof.Gen.Kernel.Points
import proofs.«110403_j68083821576868_1_alg».proof.Proof.Gen.Kernel.Frame
import proofs.«110403_j68083821576868_1_alg».proof.Proof.Gen.KernelIdeal
import proofs.«110403_j68083821576868_1_alg».proof.Proof.Gen.KernelIdeal.Skeleton
import proofs.«110403_j68083821576868_1_alg».proof.Proof.Gen.KernelIdeal.Launch
import proofs.«110403_j68083821576868_1_alg».proof.Proof.Gen.KernelIdeal.Points
import proofs.«110403_j68083821576868_1_alg».proof.Proof.Gen.KernelIdeal.Frame
import proofs.«110403_j68083821576868_1_alg».proof.Proof.Gen.ReferenceIdeal
import proofs.«110403_j68083821576868_1_alg».proof.Proof.Gen.Pre_finite_inputs
import proofs.«110403_j68083821576868_1_alg».proof.Proof.Gen.ReferenceIdeal.Run
import proofs.«110403_j68083821576868_1_alg».proof.Proof.Gen.ReferenceIdeal.Read
import proofs.«110403_j68083821576868_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one named constant: the reciprocal of the temperature the reference divides by. -/
theorem preserves : Cert.preserves_Kernel_KernelIdeal :=
  IdealRules.named_const.statement Cert.KernelIdeal.κ "inv_tau" .f32 0x41649249#32 ((134217728 / 9395241 : ℝ) : EReal) rfl

/-- Both programs end, the kernel program with the loss of its numerator and denominator, the reference with its
    value; from arguments that agree these are the same extended real. -/
theorem algebraic : Cert.algebraic_KernelIdeal_ReferenceIdeal := by
  intro m ρ m' ρ' _ hagree
  refine ⟨fun c => Cert.KernelIdeal.Running.result m c, Cert.KernelIdeal.Running.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2]
  exact (Cert.KernelIdeal.Running.result_eq_reference m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
